-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S128x1 : Shape := ⟨2, ![128, 1]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x128 .f32) (main_arg6 : FVec F S1 .f32) (main_arg7 : FVec F S1x128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S100000x1 .f32) (main_arg1 : IVec S2x1600000 32) (main_arg2 : FVec F S128x1 .f32) (main_arg3 : FVec F S128 .f32) (main_arg4 : FVec F S128x1 .f32) (main_arg5 : FVec F S1x128 .f32) (main_arg6 : FVec F S1 .f32) (main_arg7 : FVec F S1x128 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_arg6 main_arg7 main_v13 main_v16
-- ==== Kernel.lean ====
abbrev S100000x1 : Shape := ⟨2, ![100000, 1]⟩
abbrev S2x1600000 : Shape := ⟨2, ![2, 1600000]⟩
abbrev S128x1 : Shape := ⟨2, ![128, 1]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S2000x1 : Shape := ⟨2, ![2000, 1]⟩
abbrev S2000x128 : Shape := ⟨2, ![2000, 128]⟩
abbrev S1600000x128 : Shape := ⟨2, ![1600000, 128]⟩
abbrev S1x1 : Shape := ⟨2, ![1, 1]⟩
abbrev S2000 : Shape := ⟨1, ![2000]⟩

abbrev nBuf : Space → Nat
  | .hbm => 45
  | .vmem => 20
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S128x1, .f32⟩
  | .hbm, ⟨3, _⟩ => ⟨S128, .f32⟩
  | .hbm, ⟨4, _⟩ => ⟨S128x1, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x1, .f32⟩
  | .hbm, ⟨21, _⟩ => ⟨S_, .f32⟩
  | .hbm, ⟨22, _⟩ => ⟨S100000x1, .f32⟩
  | .hbm, ⟨23, _⟩ => ⟨S1600000x1, .i32⟩
  | .hbm, ⟨24, _⟩ => ⟨S100000x1, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x1, .f32⟩
  | .hbm, ⟨43, _⟩ => ⟨S100000x1, .f32⟩
  | .hbm, ⟨44, _⟩ => ⟨S100000x1, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x1, .f32⟩
  | .local _ .vmem, ⟨15, _⟩ => ⟨S1x128, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  shapeCasts_S128x1_S1x128 : S128x1.ShapeCasts S1x128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S1_S1x1 : S1.ShapeCasts S1x1
  shapeCasts_S2000x128_S2000x128 : S2000x128.ShapeCasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S2000x128_S2000 : S2000x128.Reduces [1] S2000
  shapeCasts_S2000_S2000x1 : S2000.ShapeCasts S2000x1
  broadcasts_S1x1_S2000x1 : S1x1.Broadcasts S2000x1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S100000x1.size a
  hwx1_6 : ∀ i : grid1.Coords, EltTy.bits .f32 = 32 ∨ (Rect.block (s := S100000x1) S2000x1.size (cc1_transform_6 i) (hinb1_6 i)).WholeWords (EltTy.packing .f32)

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v13) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S2000x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S2000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S128x1 : Shape := ⟨2, ![128, 1]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S128x1, .f32⟩
  | .hbm, ⟨3, _⟩ => ⟨S128, .f32⟩
  | .hbm, ⟨4, _⟩ => ⟨S128x1, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x1, .f32⟩
  | .hbm, ⟨21, _⟩ => ⟨S_, .f32⟩
  | .hbm, ⟨22, _⟩ => ⟨S100000x1, .f32⟩
  | .hbm, ⟨23, _⟩ => ⟨S1600000x1, .i32⟩
  | .hbm, ⟨24, _⟩ => ⟨S100000x1, .f32⟩
  | .hbm, ⟨25, _⟩ => ⟨S1x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x1, .f32⟩
  | .hbm, ⟨50, _⟩ => ⟨S100000x1, .f32⟩
  | .hbm, ⟨51, _⟩ => ⟨S1x1, .f32⟩
  | .hbm, ⟨52, _⟩ => ⟨S100000x1, .f32⟩
  | .hbm, ⟨53, _⟩ => ⟨S100000x1, .f32⟩
  | .hbm, ⟨54, _⟩ => ⟨S128x1, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call1_cst : Ref sig .tc := ⟨.hbm, 57, rfl⟩
abbrev main_call1_v0 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x1 : S_.BroadcastsInDim S100000x1 (![] : Fin 0 → Fin S100000x1.rank)
  transposes_S128x1_S1x128_1_0 : S128x1.Transposes [1, 0] S1x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The two-layer graph convolution as plain functions on the extended reals, index by index.

  With `agg` the neighbour sum of the layer's input (whatever produced it), a layer is
  `agg · W_relᵀ + b + x · W_rootᵀ`.  Layer one has one input feature, so its contraction is a single
  product per entry: hidden (n, j) = max (agg n · w_rel j + b j + x n · w_root j) 0.  Layer two contracts the 128
  hidden features: emb n = Σ_k agg₂ (n, k) · w_rel k + b + Σ_k h (n, k) · w_root k, and the second result is max (emb n) 0.
  The zero the maxima compare against is kept as the literal's word; it is the same word on both sides and is never
  evaluated.
-/
import Idealize.ShloMosaic.PureOps.Ideal
import Idealize.ShloMosaic.Lib.ValueIdx

noncomputable section

namespace GraphConv

open Idealize.ShloMosaic Idealize.ShloMosaic.ValueIdx

/-- The literal shapes: nodes × 1, nodes × hidden, hidden × 1, 1 × hidden, hidden, 1. -/
abbrev Sn1 : Shape := ⟨2, ![100000, 1]⟩
abbrev Snh : Shape := ⟨2, ![100000, 128]⟩
abbrev Sh1 : Shape := ⟨2, ![128, 1]⟩
abbrev S1h : Shape := ⟨2, ![1, 128]⟩
abbrev Sh : Shape := ⟨1, ![128]⟩
abbrev S1 : Shape := ⟨1, ![1]⟩

/-- The word of `0.0`, as the extended real both programs compare against. -/
abbrev zero32 : EReal := Ideal.ofBits .f32 0x00000000#32

/-- Layer one at node `p`, hidden feature `q`. -/
def hidAt (agg x : Sn1.Idx → EReal) (wr : Sh1.Idx → EReal) (b : Sh.Idx → EReal) (wo : Sh1.Idx → EReal)
    (p : Fin 100000) (q : Fin 128) : EReal :=
  max ((agg (ix2 p (0 : Fin 1)) * wr (ix2 q (0 : Fin 1)) + b (ix1 q)) + x (ix2 p (0 : Fin 1)) * wo (ix2 q (0 : Fin 1))) zero32

/-- Layer one as an array. -/
def hid (agg x : Sn1.Idx → EReal) (wr : Sh1.Idx → EReal) (b : Sh.Idx → EReal) (wo : Sh1.Idx → EReal) : Snh.Idx → EReal :=
  fun i => hidAt agg x wr b wo (i 0) (i 1)

theorem hid_ix2 (agg x : Sn1.Idx → EReal) (wr : Sh1.Idx → EReal) (b : Sh.Idx → EReal) (wo : Sh1.Idx → EReal)
    (p : Fin 100000) (q : Fin 128) : hid agg x wr b wo (ix2 p q) = hidAt agg x wr b wo p q := rfl

/-- Layer two at node `p`, before the final maximum. -/
def embAt (agg h : Snh.Idx → EReal) (wr : S1h.Idx → EReal) (b : S1.Idx → EReal) (wo : S1h.Idx → EReal)
    (p : Fin 100000) : EReal :=
  ((∑ k : Fin 128, agg (ix2 p k) * wr (ix2 (0 : Fin 1) k)) + b (ix1 (0 : Fin 1)))
    + ∑ k : Fin 128, h (ix2 p k) * wo (ix2 (0 : Fin 1) k)

/-- Layer two as an array: the first result. -/
def emb (agg h : Snh.Idx → EReal) (wr : S1h.Idx → EReal) (b : S1.Idx → EReal) (wo : S1h.Idx → EReal) : Sn1.Idx → EReal :=
  fun i => embAt agg h wr b wo (i 0)

/-- The second result: the first against zero. -/
def upd (agg h : Snh.Idx → EReal) (wr : S1h.Idx → EReal) (b : S1.Idx → EReal) (wo : S1h.Idx → EReal) : Sn1.Idx → EReal :=
  fun i => max (embAt agg h wr b wo (i 0)) zero32

theorem emb_ix2 (agg h : Snh.Idx → EReal) (wr : S1h.Idx → EReal) (b : S1.Idx → EReal) (wo : S1h.Idx → EReal)
    (p : Fin 100000) (u : Fin 1) : emb agg h wr b wo (ix2 p u) = embAt agg h wr b wo p := rfl

theorem upd_ix2 (agg h : Snh.Idx → EReal) (wr : S1h.Idx → EReal) (b : S1.Idx → EReal) (wo : S1h.Idx → EReal)
    (p : Fin 100000) (u : Fin 1) : upd agg h wr b wo (ix2 p u) = max (embAt agg h wr b wo p) zero32 := rfl

/-! ## The same layers over the operands as the kernel's windows hold them

The kernel reads the layer-one weights and bias as rows `[1, 128]` and the layer-two bias as a `[1, 1]` cell. -/

abbrev S11 : Shape := ⟨2, ![1, 1]⟩

/-- Layer one over row-shaped weights and bias. -/
def hidRowAt (agg x : Sn1.Idx → EReal) (wr b wo : S1h.Idx → EReal) (p : Fin 100000) (q : Fin 128) : EReal :=
  max ((agg (ix2 p (0 : Fin 1)) * wr (ix2 (0 : Fin 1) q) + b (ix2 (0 : Fin 1) q)) + x (ix2 p (0 : Fin 1)) * wo (ix2 (0 : Fin 1) q)) zero32

def hidRow (agg x : Sn1.Idx → EReal) (wr b wo : S1h.Idx → EReal) : Snh.Idx → EReal :=
  fun i => hidRowAt agg x wr b wo (i 0) (i 1)

theorem hidRow_ix2 (agg x : Sn1.Idx → EReal) (wr b wo : S1h.Idx → EReal) (p : Fin 100000) (q : Fin 128) :
    hidRow agg x wr b wo (ix2 p q) = hidRowAt agg x wr b wo p q := rfl

/-- Layer two over a `[1, 1]` bias cell. -/
def embCellAt (agg h : Snh.Idx → EReal) (wr : S1h.Idx → EReal) (b : S11.Idx → EReal) (wo : S1h.Idx → EReal) (p : Fin 100000) : EReal :=
  ((∑ k : Fin 128, agg (ix2 p k) * wr (ix2 (0 : Fin 1) k)) + b (ix2 (0 : Fin 1) (0 : Fin 1)))
    + ∑ k : Fin 128, h (ix2 p k) * wo (ix2 (0 : Fin 1) k)

def embCell (agg h : Snh.Idx → EReal) (wr : S1h.Idx → EReal) (b : S11.Idx → EReal) (wo : S1h.Idx → EReal) : Sn1.Idx → EReal :=
  fun i => embCellAt agg h wr b wo (i 0)

def updCell (agg h : Snh.Idx → EReal) (wr : S1h.Idx → EReal) (b : S11.Idx → EReal) (wo : S1h.Idx → EReal) : Sn1.Idx → EReal :=
  fun i => max (embCellAt agg h wr b wo (i 0)) zero32

theorem embCell_ix2 (agg h : Snh.Idx → EReal) (wr : S1h.Idx → EReal) (b : S11.Idx → EReal) (wo : S1h.Idx → EReal)
    (p : Fin 100000) (u : Fin 1) : embCell agg h wr b wo (ix2 p u) = embCellAt agg h wr b wo p := rfl

theorem updCell_ix2 (agg h : Snh.Idx → EReal) (wr : S1h.Idx → EReal) (b : S11.Idx → EReal) (wo : S1h.Idx → EReal)
    (p : Fin 100000) (u : Fin 1) : updCell agg h wr b wo (ix2 p u) = max (embCellAt agg h wr b wo p) zero32 := rfl

/-- A `[128, 1]` column read as the row the kernel stages, a `[128]` vector as a row, a `[1]` vector as a cell. -/
def rowOfCol (w : Sh1.Idx → EReal) : S1h.Idx → EReal := fun i => w (ix2 (i 1) (0 : Fin 1))
def rowOfVec (b : Sh.Idx → EReal) : S1h.Idx → EReal := fun i => b (ix1 (i 1))
def cellOfVec (b : S1.Idx → EReal) : S11.Idx → EReal := fun _ => b (ix1 (0 : Fin 1))

theorem hidRow_rows (agg x : Sn1.Idx → EReal) (wr : Sh1.Idx → EReal) (b : Sh.Idx → EReal) (wo : Sh1.Idx → EReal) :
    hidRow agg x (rowOfCol wr) (rowOfVec b) (rowOfCol wo) = hid agg x wr b wo := rfl

theorem embCell_cell (agg h : Snh.Idx → EReal) (wr : S1h.Idx → EReal) (b : S1.Idx → EReal) (wo : S1h.Idx → EReal) :
    embCell agg h wr (cellOfVec b) wo = emb agg h wr b wo := rfl

theorem updCell_cell (agg h : Snh.Idx → EReal) (wr : S1h.Idx → EReal) (b : S1.Idx → EReal) (wo : S1h.Idx → EReal) :
    updCell agg h wr (cellOfVec b) wo = upd agg h wr b wo := rfl

end GraphConv

end
-- ==== Proof.KHost.lean ====
/-
  The arrays the two kernel regions are entered with, as functions of the program's arguments.

  Before the first region the host computes the first neighbour sum: the edge array's source row, negative entries
  wrapped by the node count, indexes a gather of the inputs; the gathered values are added into a zero array at the
  edge array's target row.  It also lays the two [128, 1] weight columns and the [128] bias out as [1, 128] rows.
  Between the regions it computes the second neighbour sum the same way from the first region's output, and lays the
  [1] bias out as a [1, 1] cell.  The gathers and scatter-adds are carried as they are printed: nothing opens them.
-/
import proofs.«102510_j52286931861627_1_alg».proof.Proof.Gen.KernelIdeal.Frame
import proofs.«102510_j52286931861627_1_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen

/-! ## The neighbour sums, as printed -/

/-- The edge array's source row as a vector of edge count. -/
def srcRow (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The gathers' start indices: the source row, an entry below zero moved up by the node count. -/
def srcIdx (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The edge array's target row as a vector of edge count. -/
def dstRow (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The first neighbour sum: the inputs gathered at the sources, added up at the targets. -/
def agg1 (x : (⟨S100000x1, .f32⟩ : BufTy).Contents (Elt Ideal)) (s d : (⟨S1600000, .i32⟩ : BufTy).Contents (Elt Ideal)) :
    (⟨S100000x1, .f32⟩ : BufTy).Contents (Elt Ideal) :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 d)
    (Host.gather gather_S100000x1_S1600000x1_S1600000x1_1_0_n_n_0_1_11 x (srcIdx s))

/-- The second neighbour sum: the hidden features gathered at the sources, added up at the targets. -/
def agg2 (h : (⟨S100000x128, .f32⟩ : BufTy).Contents (Elt Ideal)) (s d : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h (srcIdx s))

/-! ## The re-laid weights: a column or a vector read as the row or cell the kernel stages -/

theorem row_of_col (w : (⟨S128x1, .f32⟩ : BufTy).Contents (Elt Ideal)) :
    shapeCast S1x128 w shapeCasts_S128x1_S1x128 = GraphConv.rowOfCol w := by
  funext i
  refine shapeCast_apply w shapeCasts_S128x1_S1x128 i (ix2 (i 1) (0 : Fin 1)) ?_
  have h0 : (i 0).val = 0 := by have h : (i 0).val < 1 := (i 0).isLt; omega
  rw [Shape.rowMajor_val_two, Shape.rowMajor_val_two]
  show (i 1).val * 1 + 0 = (i 0).val * 128 + (i 1).val
  omega

theorem row_of_vec (b : (⟨S128, .f32⟩ : BufTy).Contents (Elt Ideal)) :
    shapeCast S1x128 b shapeCasts_S128_S1x128 = GraphConv.rowOfVec b := by
  funext i
  refine shapeCast_apply b shapeCasts_S128_S1x128 i (ix1 (i 1)) ?_
  have h0 : (i 0).val = 0 := by have h : (i 0).val < 1 := (i 0).isLt; omega
  rw [Shape.rowMajor_val_one, Shape.rowMajor_val_two]
  show (i 1).val = (i 0).val * 128 + (i 1).val
  omega

theorem cell_of_vec (b : (⟨S1, .f32⟩ : BufTy).Contents (Elt Ideal)) :
    shapeCast S1x1 b shapeCasts_S1_S1x1 = GraphConv.cellOfVec b := by
  funext i
  refine shapeCast_apply b shapeCasts_S1_S1x1 i (ix1 (0 : Fin 1)) ?_
  have h0 : (i 0).val = 0 := by have h : (i 0).val < 1 := (i 0).isLt; omega
  have h1 : (i 1).val = 0 := by have h : (i 1).val < 1 := (i 1).isLt; omega
  rw [Shape.rowMajor_val_one, Shape.rowMajor_val_two]
  show 0 = (i 0).val * 1 + (i 1).val
  omega

variable (m : (ℓ : Loc nD τ sig) → Buf (Elt Ideal) ℓ) (ρ : Dev nD → PrngReg)

/-! ## Region one's entry -/

theorem entry1_agg (c : Dev nD) :
    V1 m ρ c main_v13 = agg1 (m ((c.tc : Thread nD τ).loc main_arg0)) (srcRow (m ((c.tc : Thread nD τ).loc main_arg1)))
      (dstRow (m ((c.tc : Thread nD τ).loc main_arg1))) := by
  show StableHlo.after hostOps0 (W0 m ρ c) (Proc.devRef .tc main_v13) = _
  after_results
  rfl

theorem entry1_x (c : Dev nD) : V1 m ρ c main_arg0 = m ((c.tc : Thread nD τ).loc main_arg0) := by
  show StableHlo.after hostOps0 (W0 m ρ c) (Proc.devRef .tc main_arg0) = _
  after_results

theorem entry1_wrel (c : Dev nD) : V1 m ρ c main_v14 = GraphConv.rowOfCol (m ((c.tc : Thread nD τ).loc main_arg2)) := by
  rw [← row_of_col]
  show StableHlo.after hostOps0 (W0 m ρ c) (Proc.devRef .tc main_v14) = _
  after_results
  rfl

theorem entry1_bias (c : Dev nD) : V1 m ρ c main_v16 = GraphConv.rowOfVec (m ((c.tc : Thread nD τ).loc main_arg3)) := by
  rw [← row_of_vec]
  show StableHlo.after hostOps0 (W0 m ρ c) (Proc.devRef .tc main_v16) = _
  after_results
  rfl

theorem entry1_wroot (c : Dev nD) : V1 m ρ c main_v15 = GraphConv.rowOfCol (m ((c.tc : Thread nD τ).loc main_arg4)) := by
  rw [← row_of_col]
  show StableHlo.after hostOps0 (W0 m ρ c) (Proc.devRef .tc main_v15) = _
  after_results
  rfl

/-- The two index rows, computed before region one, are still there when region two is entered: the first region writes
    only its own output array. -/
theorem exit1_src (c : Dev nD) : W2 m ρ c (Proc.devRef .tc main_v1) = srcRow (m ((c.tc : Thread nD τ).loc main_arg1)) := by
  rw [W2_of_ne m ρ c main_v1 (by decide)]
  show StableHlo.after hostOps0 (W0 m ρ c) (Proc.devRef .tc main_v1) = _
  after_results
  rfl

theorem exit1_dst (c : Dev nD) : W2 m ρ c (Proc.devRef .tc main_v3) = dstRow (m ((c.tc : Thread nD τ).loc main_arg1)) := by
  rw [W2_of_ne m ρ c main_v3 (by decide)]
  show StableHlo.after hostOps0 (W0 m ρ c) (Proc.devRef .tc main_v3) = _
  after_results
  rfl

theorem exit1_bias2 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results

theorem exit1_wrel2 (c : Dev nD) : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results

theorem exit1_wroot2 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results

/-! ## Region two's entry, over what region one left -/

theorem entry2_agg (c : Dev nD) :
    V3 m ρ c main_v27 = agg2 (W2 m ρ c (Proc.devRef .tc main_v17)) (srcRow (m ((c.tc : Thread nD τ).loc main_arg1)))
      (dstRow (m ((c.tc : Thread nD τ).loc main_arg1))) := by
  rw [← exit1_src m ρ c, ← exit1_dst m ρ c]
  show StableHlo.after hostOps1 (W2 m ρ c) (Proc.devRef .tc main_v27) = _
  after_results
  rfl

theorem entry2_hidden (c : Dev nD) : V3 m ρ c main_v17 = W2 m ρ c (Proc.devRef .tc main_v17) := by
  show StableHlo.after hostOps1 (W2 m ρ c) (Proc.devRef .tc main_v17) = _
  after_results

theorem entry2_wrel (c : Dev nD) : V3 m ρ c main_arg5 = m ((c.tc : Thread nD τ).loc main_arg5) := by
  rw [← exit1_wrel2 m ρ c]
  show StableHlo.after hostOps1 (W2 m ρ c) (Proc.devRef .tc main_arg5) = _
  after_results

theorem entry2_wroot (c : Dev nD) : V3 m ρ c main_arg7 = m ((c.tc : Thread nD τ).loc main_arg7) := by
  rw [← exit1_wroot2 m ρ c]
  show StableHlo.after hostOps1 (W2 m ρ c) (Proc.devRef .tc main_arg7) = _
  after_results

theorem entry2_bias (c : Dev nD) : V3 m ρ c main_v28 = GraphConv.cellOfVec (m ((c.tc : Thread nD τ).loc main_arg6)) := by
  rw [← cell_of_vec, ← exit1_bias2 m ρ c]
  show StableHlo.after hostOps1 (W2 m ρ c) (Proc.devRef .tc main_v28) = _
  after_results
  rfl

end Cert.KernelIdeal.Host

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Reg0.lean ====
/-
  Region one of the kernel (layer one): what its output array holds once every grid point has written its block back.

  Grid point t owns rows 2000·t … 2000·t + 1999.  Its body reads the rows' neighbour sums and inputs as columns
  [2000, 1] and the three weight rows [1, 128], and stores max (agg · w_rel + b + x · w_root) 0 over the [2000, 128]
  block.  The fifty blocks tile the [100000, 128] array, so the array after the region is the layer as one function
  of the arrays the region found.
-/
import proofs.«102510_j52286931861627_1_alg».proof.Proof.Gen.KernelIdeal.Frame
import proofs.«102510_j52286931861627_1_alg».proof.Proof.Spec
import proofs.«102510_j52286931861627_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen

/-- The zero offsets of a whole-buffer access, as the constant function. -/
theorem zero_offsets : (![0, 0] : Fin 2 → Nat) = fun _ => 0 := funext fun a => by fin_cases a <;> rfl

/-- A row `[1, 128]` broadcast down the 2000 rows reads, at `(p, q)`, the row at lane `q`. -/
theorem row_down_apply {α : Type} (v : S1x128.Idx → α) (p : Fin 2000) (q : Fin 128) :
    broadcastTo S2000x128 v broadcasts_S1x128_S2000x128 (ix2 p q) = v (ix2 (0 : Fin 1) q) := by
  refine broadcastTo_apply v broadcasts_S1x128_S2000x128 (ix2 p q) (ix2 (0 : Fin 1) q) fun ax => ?_
  match ax with
  | ⟨0, _⟩ => rfl
  | ⟨1, _⟩ => rfl

/-- The body's value at row `p`, lane `q` of its block: the neighbour sum times the weight, plus the bias, plus the
    input times the root weight, against zero. The two columns are broadcast along the lanes and the three rows down
    the rows; the casts to the same shape change nothing. -/
theorem pay_apply (a x : Vec Ideal S2000x1 .f32) (wr b wo : Vec Ideal S1x128 .f32) (p : Fin 2000) (q : Fin 128) :
    k0_pay1 (F := Ideal) a x wr b wo (ix2 p q)
      = max ((a (ix2 p (0 : Fin 1)) * wr (ix2 (0 : Fin 1) q) + b (ix2 (0 : Fin 1) q))
          + x (ix2 p (0 : Fin 1)) * wo (ix2 (0 : Fin 1) q)) GraphConv.zero32 := by
  unfold k0_pay1
  rw [maximumf_apply, addf_apply, addf_apply, mulf_apply, mulf_apply, broadcast_apply,
    Keepdims.broadcastTo_a1_ab_apply, Keepdims.broadcastTo_a1_ab_apply,
    row_down_apply, row_down_apply, row_down_apply,
    shapeCast_self, shapeCast_self, shapeCast_self, shapeCast_self]
  rfl

/-- The same at any index of the block, by its two coordinates. -/
theorem pay_at (a x : Vec Ideal S2000x1 .f32) (wr b wo : Vec Ideal S1x128 .f32) (j : S2000x128.Idx) :
    k0_pay1 (F := Ideal) a x wr b wo j
      = max ((a (ix2 (j 0) (0 : Fin 1)) * wr (ix2 (0 : Fin 1) (j 1)) + b (ix2 (0 : Fin 1) (j 1)))
          + x (ix2 (j 0) (0 : Fin 1)) * wo (ix2 (0 : Fin 1) (j 1))) GraphConv.zero32 :=
  (congrArg (k0_pay1 (F := Ideal) a x wr b wo) (eq_ix2 j)).trans (pay_apply a x wr b wo (j 0) (j 1))

/-- Where the windows sit at grid point `t`: the two column windows and the output window at block row `t`, the three
    row windows at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of layer one of the arrays the region found: each input block is read where
    the output block's rows and lanes say. -/
theorem flushed_eq (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal)
          (GraphConv.hidRow (V c main_v13) (V c main_arg0) (V c main_v14) (V c main_v16) (V c main_v15)) := by
  show (cfg0.win 5).cut (grid0.coords t) ((dat0 V c).after 5 t) = _
  rw [after0_5]
  unfold out0_5
  rw [View.canon_unit_zero zero_offsets]
  simp only [View.ld_unit_zero (S := S2000x1) zero_offsets, View.ld_unit_zero (S := S1x128) zero_offsets]
  obtain ⟨e00, e01, e10, e11, e20, e21, e30, e31, e40, e41, e50, e51⟩ := block_indices t
  funext j
  refine (pay_at (iblk0 V c 0 t) (iblk0 V c 1 t) (iblk0 V c 2 t) (iblk0 V c 3 t) (iblk0 V c 4 t) j).trans ?_
  have hj0 : (j 0).val < 2000 := (j 0).isLt
  have hj1 : (j 1).val < 128 := (j 1).isLt
  -- the neighbour sums' and the inputs' blocks hold the output block's rows
  have hcol0 : ((cfg0.win 0).blk t).view.emb (ix2 (j 0) (0 : Fin 1)) = ix2 ((((cfg0.win 5).blk t).view.emb j) 0) (0 : Fin 1) := by
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 1 + 1 * 0 = 0; omega
  have hcol1 : ((cfg0.win 1).blk t).view.emb (ix2 (j 0) (0 : Fin 1)) = ix2 ((((cfg0.win 5).blk t).view.emb j) 0) (0 : Fin 1) := by
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 1 + 1 * 0 = 0; omega
  -- the three rows' blocks are the whole rows, read at the output block's lanes
  have hrow2 : ((cfg0.win 2).blk t).view.emb (ix2 (0 : Fin 1) (j 1)) = ix2 (0 : Fin 1) ((((cfg0.win 5).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_5.index t (1 : Fin 2) * 128 + 1 * (j 1).val; omega
  have hrow3 : ((cfg0.win 3).blk t).view.emb (ix2 (0 : Fin 1) (j 1)) = ix2 (0 : Fin 1) ((((cfg0.win 5).blk t).view.emb j) 1) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega
  have hrow4 : ((cfg0.win 4).blk t).view.emb (ix2 (0 : Fin 1) (j 1)) = ix2 (0 : Fin 1) ((((cfg0.win 5).blk t).view.emb j) 1) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  have r0 : iblk0 V c 0 t (ix2 (j 0) (0 : Fin 1)) = V c main_v13 (ix2 ((((cfg0.win 5).blk t).view.emb j) 0) (0 : Fin 1)) :=
    congrArg (V c main_v13) hcol0
  have r1 : iblk0 V c 1 t (ix2 (j 0) (0 : Fin 1)) = V c main_arg0 (ix2 ((((cfg0.win 5).blk t).view.emb j) 0) (0 : Fin 1)) :=
    congrArg (V c main_arg0) hcol1
  have r2 : iblk0 V c 2 t (ix2 (0 : Fin 1) (j 1)) = V c main_v14 (ix2 (0 : Fin 1) ((((cfg0.win 5).blk t).view.emb j) 1)) :=
    congrArg (V c main_v14) hrow2
  have r3 : iblk0 V c 3 t (ix2 (0 : Fin 1) (j 1)) = V c main_v16 (ix2 (0 : Fin 1) ((((cfg0.win 5).blk t).view.emb j) 1)) :=
    congrArg (V c main_v16) hrow3
  have r4 : iblk0 V c 4 t (ix2 (0 : Fin 1) (j 1)) = V c main_v15 (ix2 (0 : Fin 1) ((((cfg0.win 5).blk t).view.emb j) 1)) :=
    congrArg (V c main_v15) hrow4
  rw [r0, r1, r2, r3, r4]
  rfl

/-- An index of the array is in point `t`'s block iff each coordinate is in the block's range on its axis. -/
theorem mem_blk (t : Fin cfg0.N) (i : S100000x128.Idx) :
    i ∈ ((cfg0.win 5).blk t).view.set
      ↔ ∀ a : Fin 2, win0_5.index t a * S2000x128.size a ≤ (i a).val ∧ (i a).val < win0_5.index t a * S2000x128.size a + S2000x128.size a := by
  show i ∈ ((View.whole main_v17).slice (win0_5.rect t)).set ↔ _
  rw [View.set_slice_whole, Rect.mem_set_unit]
  exact Iff.rfl

/-- The fifty blocks tile the array: row `r` lies in the block of point `r / 2000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 2000 < cfg0.N := by show (i 0).val / 2000 < 50; omega
  obtain ⟨-, -, -, -, -, -, -, -, -, -, e50, e51⟩ := block_indices ⟨(i 0).val / 2000, ht⟩
  have e50' : win0_5.index ⟨(i 0).val / 2000, ht⟩ (0 : Fin 2) = (i 0).val / 2000 := e50
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    omega

/-- After region one, its output array is layer one of the arrays the region was entered with: the neighbour sums
    (window 0), the inputs (window 1) and the weight, bias and root-weight rows (windows 2, 3, 4). -/
theorem arr_hidden (V : (c : Dev nD) → (b : Ref sig .tc) → Buf (Elt Ideal) ((c : Thread nD τ).loc b)) (c : Dev nD) :
    (dat0 (F := Ideal) V c).arrAt 5 cfg0.N
      = GraphConv.hidRow (V c main_v13) (V c main_arg0) (V c main_v14) (V c main_v16) (V c main_v15) :=
  (dat0 (F := Ideal) V c).arrAt_eq_of_cover 5
    (GraphConv.hidRow (V c main_v13) (V c main_arg0) (V c main_v14) (V c main_v16) (V c main_v15))
    (fun t _ => flushed_eq V c t) covered

end Cert.KernelIdeal.Reg0

end
-- ==== Proof.Reg1.lean ====
/-
  Region two of the kernel (layer two): what its two output arrays hold once every grid point has written back.

  Grid point t owns rows 2000·t … 2000·t + 1999.  Its body reads the rows of the aggregated hidden features and of
  the hidden features themselves, [2000, 128] each, the two weight rows [1, 128] and the bias cell [1, 1]; it sums
  agg₂ · w_rel and h · w_root along the 128 lanes, adds the bias between them, and stores the sum in the first output's
  [2000, 1] block and its maximum with zero in the second's.  The fifty blocks tile each [100000, 1] array.
-/
import proofs.«102510_j52286931861627_1_alg».proof.Proof.Gen.KernelIdeal.Frame
import proofs.«102510_j52286931861627_1_alg».proof.Proof.Spec
import proofs.«102510_j52286931861627_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen

/-! ## The body's result at one row of a block -/

/-- A whole-buffer access starts at offset zero on both axes. -/
theorem offsets_zero : (![0, 0] : Fin 2 → Nat) = fun _ => 0 :=
  funext fun a => match a with | ⟨0, _⟩ => rfl | ⟨1, _⟩ => rfl

/-- A weight row [1, 128] broadcast down the 2000 rows reads, at (p, k), the row at lane k. -/
theorem row_down_apply (w : Vec Ideal S1x128 .f32) (p : Fin 2000) (k : Fin 128) :
    broadcastTo S2000x128 w broadcasts_S1x128_S2000x128 (ix2 p k) = w (ix2 (0 : Fin 1) k) := by
  refine broadcastTo_apply w broadcasts_S1x128_S2000x128 (ix2 p k) (ix2 (0 : Fin 1) k) fun ax => ?_
  match ax with
  | ⟨0, _⟩ => rfl
  | ⟨1, _⟩ => rfl

/-- The bias cell [1, 1] broadcast down the 2000 rows reads the cell everywhere. -/
theorem cell_down_apply (b : Vec Ideal S1x1 .f32) (p : Fin 2000) (u : Fin 1) :
    broadcastTo S2000x1 b broadcasts_S1x1_S2000x1 (ix2 p u) = b (ix2 (0 : Fin 1) (0 : Fin 1)) := by
  refine broadcastTo_apply b broadcasts_S1x1_S2000x1 (ix2 p u) (ix2 (0 : Fin 1) (0 : Fin 1)) fun ax => ?_
  match ax with
  | ⟨0, _⟩ => rfl
  | ⟨1, _⟩ => rfl

/-- The lane sum of a block times a weight row, kept as a column: at row p it is Σ_k x (p, k) · w (0, k). -/
theorem lane_dot_apply (x : Vec Ideal S2000x128 .f32) (w : Vec Ideal S1x128 .f32) (p : Fin 2000) (u : Fin 1) :
    shapeCast S2000x1 (multiReduction (F := Ideal) .add [1] S2000
        (mulf (shapeCast S2000x128 x shapeCasts_S2000x128_S2000x128) (broadcastTo S2000x128 w broadcasts_S1x128_S2000x128))
        0x00000000#32 reduces_S2000x128_S2000 (.inl rfl) rfl) shapeCasts_S2000_S2000x1 (ix2 p u)
      = ∑ k : Fin 128, x (ix2 p k) * w (ix2 (0 : Fin 1) k) := by
  refine (Keepdims.shapeCast_a_a1_apply _ shapeCasts_S2000_S2000x1 p u).trans ?_
  refine (Keepdims.laneSum_apply _ _ reduces_S2000x128_S2000 (.inl rfl) rfl p).trans ?_
  refine Finset.sum_congr rfl fun k _ => ?_
  refine (mulf_apply _ _ _).trans ?_
  rw [shapeCast_self, row_down_apply]

/-- The body's first result at row p of its block: the two lane sums with the bias cell between them. -/
theorem pay1_apply (x0 x1 : Vec Ideal S2000x128 .f32) (x2 : Vec Ideal S1x128 .f32) (x3 : Vec Ideal S1x1 .f32)
    (x4 : Vec Ideal S1x128 .f32) (p : Fin 2000) (u : Fin 1) :
    k1_pay1 (F := Ideal) x0 x1 x2 x3 x4 (ix2 p u)
      = ((∑ k : Fin 128, x0 (ix2 p k) * x2 (ix2 (0 : Fin 1) k)) + x3 (ix2 (0 : Fin 1) (0 : Fin 1)))
        + ∑ k : Fin 128, x1 (ix2 p k) * x4 (ix2 (0 : Fin 1) k) := by
  unfold k1_pay1
  refine (addf_apply _ _ _).trans ?_
  refine congrArg₂ (· + ·) ((addf_apply _ _ _).trans (congrArg₂ (· + ·) (lane_dot_apply x0 x2 p u) ?_)) (lane_dot_apply x1 x4 p u)
  rw [shapeCast_self]
  exact cell_down_apply x3 p u

/-- The body's second result is its first against the zero word. -/
theorem pay2_apply (x0 x1 : Vec Ideal S2000x128 .f32) (x2 : Vec Ideal S1x128 .f32) (x3 : Vec Ideal S1x1 .f32)
    (x4 : Vec Ideal S1x128 .f32) (p : Fin 2000) (u : Fin 1) :
    k1_pay2 (F := Ideal) x0 x1 x2 x3 x4 (ix2 p u) = max (k1_pay1 (F := Ideal) x0 x1 x2 x3 x4 (ix2 p u)) GraphConv.zero32 := rfl

/-- When row p of the two feature blocks is row r of the feature arrays and the row and cell blocks are the weight rows
    and the bias cell, the body's first result at row p is layer two at node r. -/
theorem pay1_row (agg hid : GraphConv.Snh.Idx → EReal) (wr : GraphConv.S1h.Idx → EReal) (b : GraphConv.S11.Idx → EReal)
    (wo : GraphConv.S1h.Idx → EReal)
    (x0 x1 : Vec Ideal S2000x128 .f32) (x2 : Vec Ideal S1x128 .f32) (x3 : Vec Ideal S1x1 .f32) (x4 : Vec Ideal S1x128 .f32)
    (r : Fin 100000) (p : Fin 2000) (u : Fin 1)
    (h0 : ∀ k : Fin 128, x0 (ix2 p k) = agg (ix2 r k)) (h1 : ∀ k : Fin 128, x1 (ix2 p k) = hid (ix2 r k))
    (h2 : ∀ k : Fin 128, x2 (ix2 (0 : Fin 1) k) = wr (ix2 (0 : Fin 1) k))
    (h3 : x3 (ix2 (0 : Fin 1) (0 : Fin 1)) = b (ix2 (0 : Fin 1) (0 : Fin 1)))
    (h4 : ∀ k : Fin 128, x4 (ix2 (0 : Fin 1) k) = wo (ix2 (0 : Fin 1) k)) :
    k1_pay1 (F := Ideal) x0 x1 x2 x3 x4 (ix2 p u) = GraphConv.embCellAt agg hid wr b wo r := by
  rw [pay1_apply]
  unfold GraphConv.embCellAt
  simp only [h0, h1, h2, h3, h4]

/-! ## From blocks to the arrays -/

/-- The printed index maps over the fifty grid points: the two feature windows and the two output windows sit at block
    row t, lane block 0; the weight rows and the bias cell at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Row p of grid point t's block of the aggregated hidden features is row 2000·t + p of their array. -/
theorem agg_blk_apply (p : Fin 2000) (k : Fin 128) (r : Fin 100000) (hr : r.val = t.val * 2000 + p.val) :
    iblk1 (F := Ideal) V c 0 t (ix2 p k) = V c main_v27 (ix2 r k) := by
  obtain ⟨e0, e1, -⟩ := idx_facts t
  show V c main_v27 (((cfg1.win 0).blk t).view.emb (ix2 p k)) = V c main_v27 (ix2 r k)
  refine congrArg (V c main_v27) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row p of grid point t's block of the hidden features is row 2000·t + p of their array. -/
theorem hid_blk_apply (p : Fin 2000) (k : Fin 128) (r : Fin 100000) (hr : r.val = t.val * 2000 + p.val) :
    iblk1 (F := Ideal) V c 1 t (ix2 p k) = V c main_v17 (ix2 r k) := by
  obtain ⟨-, -, e0, e1, -⟩ := idx_facts t
  show V c main_v17 (((cfg1.win 1).blk t).view.emb (ix2 p k)) = V c main_v17 (ix2 r k)
  refine congrArg (V c main_v17) (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- Every grid point's block of the first weight row is the row. -/
theorem wrel_blk_apply (k : Fin 128) :
    iblk1 (F := Ideal) V c 2 t (ix2 (0 : Fin 1) k) = V c main_arg5 (ix2 (0 : Fin 1) k) := by
  obtain ⟨-, -, -, -, e0, e1, -⟩ := idx_facts t
  show V c main_arg5 (((cfg1.win 2).blk t).view.emb (ix2 (0 : Fin 1) k)) = V c main_arg5 (ix2 (0 : Fin 1) k)
  refine congrArg (V c main_arg5) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- Every grid point's block of the bias cell is the cell. -/
theorem bias_blk_apply :
    iblk1 (F := Ideal) V c 3 t (ix2 (0 : Fin 1) (0 : Fin 1)) = V c main_v28 (ix2 (0 : Fin 1) (0 : Fin 1)) := by
  obtain ⟨-, -, -, -, -, -, e0, e1, -⟩ := idx_facts t
  show V c main_v28 (((cfg1.win 3).blk t).view.emb (ix2 (0 : Fin 1) (0 : Fin 1))) = V c main_v28 (ix2 (0 : Fin 1) (0 : Fin 1))
  refine congrArg (V c main_v28) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-- Every grid point's block of the root weight row is the row. -/
theorem wroot_blk_apply (k : Fin 128) :
    iblk1 (F := Ideal) V c 4 t (ix2 (0 : Fin 1) k) = V c main_arg7 (ix2 (0 : Fin 1) k) := by
  obtain ⟨-, -, -, -, -, -, -, -, e0, e1, -⟩ := idx_facts t
  show V c main_arg7 (((cfg1.win 4).blk t).view.emb (ix2 (0 : Fin 1) k)) = V c main_arg7 (ix2 (0 : Fin 1) k)
  refine congrArg (V c main_arg7) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- The body's first result at row p of grid point t's blocks is layer two at node 2000·t + p. -/
theorem pay1_blk (p : Fin 2000) (u : Fin 1) (r : Fin 100000) (hr : r.val = t.val * 2000 + p.val) :
    k1_pay1 (F := Ideal) (iblk1 V c 0 t) (iblk1 V c 1 t) (iblk1 V c 2 t) (iblk1 V c 3 t) (iblk1 V c 4 t) (ix2 p u)
      = GraphConv.embCellAt (V c main_v27) (V c main_v17) (V c main_arg5) (V c main_v28) (V c main_arg7) r :=
  pay1_row (V c main_v27) (V c main_v17) (V c main_arg5) (V c main_v28) (V c main_arg7) (iblk1 V c 0 t) (iblk1 V c 1 t) (iblk1 V c 2 t) (iblk1 V c 3 t) (iblk1 V c 4 t) r p u
    (fun k => agg_blk_apply V c t p k r hr) (fun k => hid_blk_apply V c t p k r hr)
    (fun k => wrel_blk_apply V c t k) (bias_blk_apply V c t) (fun k => wroot_blk_apply V c t k)

/-- What grid point t writes back to the first output is its block of layer two of the arrays. -/
theorem flushed_emb :
    (dat1 (F := Ideal) V c).flushed 5 t
      = ((cfg1.win 5).blk t).view.read (Elt Ideal) (GraphConv.embCell (V c main_v27) (V c main_v17) (V c main_arg5) (V c main_v28) (V c main_arg7)) := by
  show (cfg1.win 5).cut (grid1.coords t) ((dat1 (F := Ideal) V c).after 5 t) = _
  rw [after1_5]
  unfold out1_5
  rw [View.canon_unit_zero offsets_zero]
  simp only [View.ld_unit_zero (S := S2000x128) offsets_zero, View.ld_unit_zero (S := S1x128) offsets_zero,
    View.ld_unit_zero (S := S1x1) offsets_zero]
  obtain ⟨-, -, -, -, -, -, -, -, -, -, e0, e1, -⟩ := idx_facts t
  funext j
  obtain ⟨p, u, rfl⟩ : ∃ (p : Fin 2000) (u : Fin 1), j = ix2 p u := ⟨j 0, j 1, eq_ix2 j⟩
  show k1_pay1 (F := Ideal) (iblk1 V c 0 t) (iblk1 V c 1 t) (iblk1 V c 2 t) (iblk1 V c 3 t) (iblk1 V c 4 t) (ix2 p u)
      = GraphConv.embCellAt (V c main_v27) (V c main_v17) (V c main_arg5) (V c main_v28) (V c main_arg7) (((cfg1.win 5).blk t).view.emb (ix2 p u) 0)
  refine pay1_blk V c t p u _ ?_
  show win1_5.index t (0 : Fin 2) * 2000 + 1 * p.val = t.val * 2000 + p.val
  omega

/-- and to the second output its block of the same against zero. -/
theorem flushed_upd :
    (dat1 (F := Ideal) V c).flushed 6 t
      = ((cfg1.win 6).blk t).view.read (Elt Ideal) (GraphConv.updCell (V c main_v27) (V c main_v17) (V c main_arg5) (V c main_v28) (V c main_arg7)) := by
  show (cfg1.win 6).cut (grid1.coords t) ((dat1 (F := Ideal) V c).after 6 t) = _
  rw [after1_6]
  unfold out1_6
  rw [View.canon_unit_zero offsets_zero]
  simp only [View.ld_unit_zero (S := S2000x128) offsets_zero, View.ld_unit_zero (S := S1x128) offsets_zero,
    View.ld_unit_zero (S := S1x1) offsets_zero]
  obtain ⟨-, -, -, -, -, -, -, -, -, -, -, -, e0, e1⟩ := idx_facts t
  funext j
  obtain ⟨p, u, rfl⟩ : ∃ (p : Fin 2000) (u : Fin 1), j = ix2 p u := ⟨j 0, j 1, eq_ix2 j⟩
  show k1_pay2 (F := Ideal) (iblk1 V c 0 t) (iblk1 V c 1 t) (iblk1 V c 2 t) (iblk1 V c 3 t) (iblk1 V c 4 t) (ix2 p u)
      = max (GraphConv.embCellAt (V c main_v27) (V c main_v17) (V c main_arg5) (V c main_v28) (V c main_arg7) (((cfg1.win 6).blk t).view.emb (ix2 p u) 0)) GraphConv.zero32
  refine (pay2_apply (iblk1 V c 0 t) (iblk1 V c 1 t) (iblk1 V c 2 t) (iblk1 V c 3 t) (iblk1 V c 4 t) p u).trans (congrArg (max · GraphConv.zero32) ?_)
  refine pay1_blk V c t p u _ ?_
  show win1_6.index t (0 : Fin 2) * 2000 + 1 * p.val = t.val * 2000 + p.val
  omega

end Blocks

/-- An index of the first output array is in grid point t's block iff each coordinate is in the block's range. -/
theorem mem_blk_emb (t : Fin cfg1.N) (i : S100000x1.Idx) :
    i ∈ ((cfg1.win 5).blk t).view.set ↔ ∀ a : Fin 2, win1_5.index t a * S2000x1.size a ≤ (i a).val
      ∧ (i a).val < win1_5.index t a * S2000x1.size a + S2000x1.size a := by
  show i ∈ ((View.whole main_v29_0).slice (win1_5.rect t)).set ↔ _
  rw [View.set_slice_whole, Rect.mem_set_unit]
  exact Iff.rfl

/-- The same for the second output array. -/
theorem mem_blk_upd (t : Fin cfg1.N) (i : S100000x1.Idx) :
    i ∈ ((cfg1.win 6).blk t).view.set ↔ ∀ a : Fin 2, win1_6.index t a * S2000x1.size a ≤ (i a).val
      ∧ (i a).val < win1_6.index t a * S2000x1.size a + S2000x1.size a := by
  show i ∈ ((View.whole main_v29_1).slice (win1_6.rect t)).set ↔ _
  rw [View.set_slice_whole, Rect.mem_set_unit]
  exact Iff.rfl

/-- Row r of the first output array lies in the block of grid point r / 2000, which writes back. -/
theorem cover_emb (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1, -⟩ := idx_facts t
  refine ⟨t, flush1_5 t, ?_⟩
  rw [mem_blk_emb]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 1 ≤ (i 1).val ∧ (i 1).val < win1_5.index t (1 : Fin 2) * 1 + 1
    omega

/-- The same for the second output array. -/
theorem cover_upd (i : S100000x1.Idx) :
    ∃ t : Fin cfg1.N, (cfg1.win 6).flush t = true ∧ i ∈ ((cfg1.win 6).blk t).view.set := by
  have hi0 : (i 0).val < 100000 := (i 0).isLt
  have hi1 : (i 1).val < 1 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, e0, e1⟩ := idx_facts t
  refine ⟨t, flush1_6 t, ?_⟩
  rw [mem_blk_upd]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 1 ≤ (i 1).val ∧ (i 1).val < win1_6.index t (1 : Fin 2) * 1 + 1
    omega

/-- After region two, its first output array is layer two of the arrays the region was entered with: the aggregated
    hidden features (window 0), the hidden features (window 1), the weight row (2), the bias cell (3), the root-weight row (4). -/
theorem arr_emb (V : (c : Dev nD) → (b : Ref sig .tc) → Buf (Elt Ideal) ((c : Thread nD τ).loc b)) (c : Dev nD) :
    (dat1 (F := Ideal) V c).arrAt 5 cfg1.N
      = GraphConv.embCell (V c main_v27) (V c main_v17) (V c main_arg5) (V c main_v28) (V c main_arg7) :=
  (dat1 (F := Ideal) V c).arrAt_eq_of_cover 5 (GraphConv.embCell (V c main_v27) (V c main_v17) (V c main_arg5) (V c main_v28) (V c main_arg7))
    (fun t _ => flushed_emb V c t) cover_emb

/-- and its second output array the same against zero. -/
theorem arr_upd (V : (c : Dev nD) → (b : Ref sig .tc) → Buf (Elt Ideal) ((c : Thread nD τ).loc b)) (c : Dev nD) :
    (dat1 (F := Ideal) V c).arrAt 6 cfg1.N
      = GraphConv.updCell (V c main_v27) (V c main_v17) (V c main_arg5) (V c main_v28) (V c main_arg7) :=
  (dat1 (F := Ideal) V c).arrAt_eq_of_cover 6 (GraphConv.updCell (V c main_v27) (V c main_v17) (V c main_arg5) (V c main_v28) (V c main_arg7))
    (fun t _ => flushed_upd V c t) cover_upd

end Cert.KernelIdeal.Reg1

end
-- ==== Proof.KValue.lean ====
/-
  The kernel program's two results as the two-layer graph convolution of its arguments.

  Region one leaves layer one of the first neighbour sum in its output array; the host gathers and adds that array
  into the second neighbour sum; region two leaves layer two of it, and the same against zero, in the two results.
-/
import proofs.«102510_j52286931861627_1_alg».proof.Proof.KLaunch
import proofs.«102510_j52286931861627_1_alg».proof.Proof.KHost
import proofs.«102510_j52286931861627_1_alg».proof.Proof.Reg0
import proofs.«102510_j52286931861627_1_alg».proof.Proof.Reg1
import proofs.«102510_j52286931861627_1_alg».proof.Proof.Spec

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Host

/-- Layer one of the first neighbour sum, as a function of the program's first five arguments. -/
def hidden (x : (⟨S100000x1, .f32⟩ : BufTy).Contents (Elt Ideal)) (e : (⟨S2x1600000, .i32⟩ : BufTy).Contents (Elt Ideal))
    (w1r : (⟨S128x1, .f32⟩ : BufTy).Contents (Elt Ideal)) (b1 : (⟨S128, .f32⟩ : BufTy).Contents (Elt Ideal))
    (w1o : (⟨S128x1, .f32⟩ : BufTy).Contents (Elt Ideal)) : (⟨S100000x128, .f32⟩ : BufTy).Contents (Elt Ideal) :=
  GraphConv.hid (agg1 x (srcRow e) (dstRow e)) x w1r b1 w1o

/-- The first result: layer two of the second neighbour sum. -/
def out0 (x : (⟨S100000x1, .f32⟩ : BufTy).Contents (Elt Ideal)) (e : (⟨S2x1600000, .i32⟩ : BufTy).Contents (Elt Ideal))
    (w1r : (⟨S128x1, .f32⟩ : BufTy).Contents (Elt Ideal)) (b1 : (⟨S128, .f32⟩ : BufTy).Contents (Elt Ideal))
    (w1o : (⟨S128x1, .f32⟩ : BufTy).Contents (Elt Ideal)) (w2r : (⟨S1x128, .f32⟩ : BufTy).Contents (Elt Ideal))
    (b2 : (⟨S1, .f32⟩ : BufTy).Contents (Elt Ideal)) (w2o : (⟨S1x128, .f32⟩ : BufTy).Contents (Elt Ideal)) :
    (⟨S100000x1, .f32⟩ : BufTy).Contents (Elt Ideal) :=
  GraphConv.emb (agg2 (hidden x e w1r b1 w1o) (srcRow e) (dstRow e)) (hidden x e w1r b1 w1o) w2r b2 w2o

/-- The second result: the first against zero. -/
def out1 (x : (⟨S100000x1, .f32⟩ : BufTy).Contents (Elt Ideal)) (e : (⟨S2x1600000, .i32⟩ : BufTy).Contents (Elt Ideal))
    (w1r : (⟨S128x1, .f32⟩ : BufTy).Contents (Elt Ideal)) (b1 : (⟨S128, .f32⟩ : BufTy).Contents (Elt Ideal))
    (w1o : (⟨S128x1, .f32⟩ : BufTy).Contents (Elt Ideal)) (w2r : (⟨S1x128, .f32⟩ : BufTy).Contents (Elt Ideal))
    (b2 : (⟨S1, .f32⟩ : BufTy).Contents (Elt Ideal)) (w2o : (⟨S1x128, .f32⟩ : BufTy).Contents (Elt Ideal)) :
    (⟨S100000x1, .f32⟩ : BufTy).Contents (Elt Ideal) :=
  GraphConv.upd (agg2 (hidden x e w1r b1 w1o) (srcRow e) (dstRow e)) (hidden x e w1r b1 w1o) w2r b2 w2o

variable (m : (ℓ : Loc nD τ sig) → Buf (Elt Ideal) ℓ) (ρ : Dev nD → PrngReg)

/-- What region one leaves in its output array. -/
theorem exit1_hidden (c : Dev nD) :
    W2 m ρ c (Proc.devRef .tc main_v17)
      = hidden (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (W2_arr m ρ c 5).trans ?_
  rw [Reg0.arr_hidden (V1 m ρ) c, entry1_agg m ρ c, entry1_x m ρ c, entry1_wrel m ρ c, entry1_bias m ρ c, entry1_wroot m ρ c]
  exact GraphConv.hidRow_rows _ _ _ _ _

/-- What region two leaves in the first result. -/
theorem exit2_out0 (c : Dev nD) :
    W4 m ρ c (Proc.devRef .tc main_v29_0)
      = out0 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  refine (W4_arr m ρ c 5).trans ?_
  rw [Reg1.arr_emb (V3 m ρ) c, entry2_agg m ρ c, entry2_hidden m ρ c, entry2_wrel m ρ c, entry2_bias m ρ c, entry2_wroot m ρ c,
    exit1_hidden m ρ c]
  exact GraphConv.embCell_cell _ _ _ _ _

/-- What region two leaves in the second result. -/
theorem exit2_out1 (c : Dev nD) :
    W4 m ρ c (Proc.devRef .tc main_v29_1)
      = out1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  refine (W4_arr m ρ c 6).trans ?_
  rw [Reg1.arr_upd (V3 m ρ) c, entry2_agg m ρ c, entry2_hidden m ρ c, entry2_wrel m ρ c, entry2_bias m ρ c, entry2_wroot m ρ c,
    exit1_hidden m ρ c]
  exact GraphConv.updCell_cell _ _ _ _ _

/-- The run of the kernel program with its results named as functions of the arguments. -/
theorem run : θ_run defs (onTc (τ := τ) (main (F := Ideal))) ⟨m, fun _ => 0, ρ⟩ (fun r => ∀ c : Dev nD,
      r.2.mem ((c.tc : Thread nD τ).loc main_v29_0)
        = out0 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_v29_1)
        = out1 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans (exit2_out0 m ρ c), (h c).2.1.trans (exit2_out1 m ρ c), (h c).2.2⟩)
    (Cert.KernelIdeal.Results.run (F := Ideal) m ρ)

end Cert.KernelIdeal.KValue

end
-- ==== Proof.RefValue.lean ====
/-
  The reference's two results as the two-layer graph convolution of its own neighbour sums.

  Its layer one is a product with a [1, 128] transpose over a contraction of extent one, so each entry is the single
  product agg n · w_rel j (and x n · w_root j), the bias added between them and the maximum with zero taken; its layer
  two contracts the 128 hidden features against the transposed weight rows.  The neighbour sums (a gather by the
  source indices, a scatter-add by the target indices) are carried as they are: nothing here opens them.
-/
import proofs.«102510_j52286931861627_1_alg».proof.Proof.Gen.ReferenceIdeal.Run
import proofs.«102510_j52286931861627_1_alg».proof.Proof.Gen.ReferenceIdeal.Read
import proofs.«102510_j52286931861627_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## Index equations: the reference's composed index functions at coordinates -/

theorem lidx15_ix2 (p : Fin 100000) (q : Fin 128) (k : Fin 1) :
    lidx_main_v15 (ix2 p q) k = ix2 p (0 : Fin 1) := by
  obtain rfl : k = 0 := Subsingleton.elim k 0
  exact funext fun a => Fin.ext (by match a with | ⟨0, _⟩ => rfl | ⟨1, _⟩ => rfl)

theorem ridx15_ix2 (p : Fin 100000) (q : Fin 128) (k : Fin 1) :
    idx_main_v14 (ridx_main_v15 (ix2 p q) k) = ix2 q (0 : Fin 1) := by
  obtain rfl : k = 0 := Subsingleton.elim k 0
  exact funext fun a => Fin.ext (by match a with | ⟨0, _⟩ => rfl | ⟨1, _⟩ => rfl)

theorem idx17_ix2 (p : Fin 100000) (q : Fin 128) :
    idx_main_v16 (idx_main_v17 (ix2 p q)) = ix1 q :=
  funext fun a => Fin.ext (by match a with | ⟨0, _⟩ => rfl)

theorem lidx20_ix2 (p : Fin 100000) (q : Fin 128) (k : Fin 1) :
    lidx_main_v20 (ix2 p q) k = ix2 p (0 : Fin 1) := by
  obtain rfl : k = 0 := Subsingleton.elim k 0
  exact funext fun a => Fin.ext (by match a with | ⟨0, _⟩ => rfl | ⟨1, _⟩ => rfl)

theorem ridx20_ix2 (p : Fin 100000) (q : Fin 128) (k : Fin 1) :
    idx_main_v19 (ridx_main_v20 (ix2 p q) k) = ix2 q (0 : Fin 1) := by
  obtain rfl : k = 0 := Subsingleton.elim k 0
  exact funext fun a => Fin.ext (by match a with | ⟨0, _⟩ => rfl | ⟨1, _⟩ => rfl)

theorem lidx34_ix2 (p : Fin 100000) (k : Fin 128) :
    lidx_main_v34 (ix2 p (0 : Fin 1)) k = ix2 p k :=
  funext fun a => Fin.ext (by match a with | ⟨0, _⟩ => rfl | ⟨1, _⟩ => rfl)

theorem ridx34_ix2 (p : Fin 100000) (k : Fin 128) :
    idx_main_v33 (ridx_main_v34 (ix2 p (0 : Fin 1)) k) = ix2 (0 : Fin 1) k :=
  funext fun a => Fin.ext (by match a with | ⟨0, _⟩ => rfl | ⟨1, _⟩ => rfl)

theorem idx36_ix2 (p : Fin 100000) :
    idx_main_v35 (idx_main_v36 (ix2 p (0 : Fin 1))) = ix1 (0 : Fin 1) :=
  funext fun a => Fin.ext (by match a with | ⟨0, _⟩ => rfl)

theorem lidx39_ix2 (p : Fin 100000) (k : Fin 128) :
    lidx_main_v39 (ix2 p (0 : Fin 1)) k = ix2 p k :=
  funext fun a => Fin.ext (by match a with | ⟨0, _⟩ => rfl | ⟨1, _⟩ => rfl)

theorem ridx39_ix2 (p : Fin 100000) (k : Fin 128) :
    idx_main_v38 (ridx_main_v39 (ix2 p (0 : Fin 1)) k) = ix2 (0 : Fin 1) k :=
  funext fun a => Fin.ext (by match a with | ⟨0, _⟩ => rfl | ⟨1, _⟩ => rfl)

/-- The reference's hidden features are layer one of its first neighbour sum. -/
theorem hidden_eq (x0 : (⟨S100000x1, .f32⟩ : BufTy).Contents (Elt Ideal)) (x1 : (⟨S2x1600000, .i32⟩ : BufTy).Contents (Elt Ideal))
    (x2 : (⟨S128x1, .f32⟩ : BufTy).Contents (Elt Ideal)) (x3 : (⟨S128, .f32⟩ : BufTy).Contents (Elt Ideal))
    (x4 : (⟨S128x1, .f32⟩ : BufTy).Contents (Elt Ideal)) :
    val_main_v22 (F := Ideal) x0 x1 x2 x3 x4 = GraphConv.hid (val_main_v13 (F := Ideal) x0 x1) x0 x2 x3 x4 := by
  funext i
  obtain ⟨p, q, rfl⟩ : ∃ (p : Fin 100000) (q : Fin 128), i = ix2 p q := ⟨i 0, i 1, eq_ix2 i⟩
  -- the maximum of the two sums against the broadcast zero; each contraction has the single term k = 0
  rw [val_main_v22_apply, val_main_v21_apply, val_main_v18_apply, val_main_v15_apply, val_main_v17_apply,
    val_main_v16_apply, val_main_v20_apply, val_main_call0_v0_apply, val_main_call0_cst_apply,
    Fin.sum_univ_one, Fin.sum_univ_one, val_main_v14_apply, val_main_v19_apply,
    lidx15_ix2, ridx15_ix2, idx17_ix2, lidx20_ix2, ridx20_ix2, GraphConv.hid_ix2]
  generalize val_main_v13 (F := Ideal) x0 x1 = agg
  rfl

/-- The reference's first result is layer two of its second neighbour sum and its hidden features. -/
theorem out0_eq (x0 : (⟨S100000x1, .f32⟩ : BufTy).Contents (Elt Ideal)) (x1 : (⟨S2x1600000, .i32⟩ : BufTy).Contents (Elt Ideal))
    (x2 : (⟨S128x1, .f32⟩ : BufTy).Contents (Elt Ideal)) (x3 : (⟨S128, .f32⟩ : BufTy).Contents (Elt Ideal))
    (x4 : (⟨S128x1, .f32⟩ : BufTy).Contents (Elt Ideal)) (x5 : (⟨S1x128, .f32⟩ : BufTy).Contents (Elt Ideal))
    (x6 : (⟨S1, .f32⟩ : BufTy).Contents (Elt Ideal)) (x7 : (⟨S1x128, .f32⟩ : BufTy).Contents (Elt Ideal)) :
    val_main_v40 (F := Ideal) x0 x1 x2 x3 x4 x5 x6 x7
      = GraphConv.emb (val_main_v32 (F := Ideal) x0 x1 x2 x3 x4) (val_main_v22 (F := Ideal) x0 x1 x2 x3 x4) x5 x6 x7 := by
  funext i
  obtain ⟨p, u, rfl⟩ : ∃ (p : Fin 100000) (u : Fin 1), i = ix2 p u := ⟨i 0, i 1, eq_ix2 i⟩
  obtain rfl : u = 0 := Subsingleton.elim u 0
  -- the two contractions over the 128 hidden features, the bias cell between them
  rw [val_main_v40_apply, val_main_v37_apply, val_main_v34_apply, val_main_v36_apply, val_main_v35_apply,
    val_main_v39_apply, idx36_ix2, GraphConv.emb_ix2]
  generalize val_main_v32 (F := Ideal) x0 x1 x2 x3 x4 = agg
  generalize val_main_v22 (F := Ideal) x0 x1 x2 x3 x4 = h
  simp only [val_main_v33_apply, val_main_v38_apply, lidx34_ix2, ridx34_ix2, lidx39_ix2, ridx39_ix2]
  rfl

/-- and its second result the same against zero. -/
theorem out1_eq (x0 : (⟨S100000x1, .f32⟩ : BufTy).Contents (Elt Ideal)) (x1 : (⟨S2x1600000, .i32⟩ : BufTy).Contents (Elt Ideal))
    (x2 : (⟨S128x1, .f32⟩ : BufTy).Contents (Elt Ideal)) (x3 : (⟨S128, .f32⟩ : BufTy).Contents (Elt Ideal))
    (x4 : (⟨S128x1, .f32⟩ : BufTy).Contents (Elt Ideal)) (x5 : (⟨S1x128, .f32⟩ : BufTy).Contents (Elt Ideal))
    (x6 : (⟨S1, .f32⟩ : BufTy).Contents (Elt Ideal)) (x7 : (⟨S1x128, .f32⟩ : BufTy).Contents (Elt Ideal)) :
    val_main_v41 (F := Ideal) x0 x1 x2 x3 x4 x5 x6 x7
      = GraphConv.upd (val_main_v32 (F := Ideal) x0 x1 x2 x3 x4) (val_main_v22 (F := Ideal) x0 x1 x2 x3 x4) x5 x6 x7 := by
  funext i
  obtain ⟨p, u, rfl⟩ : ∃ (p : Fin 100000) (u : Fin 1), i = ix2 p u := ⟨i 0, i 1, eq_ix2 i⟩
  -- the maximum of the first result against the broadcast zero
  rw [val_main_v41_apply, val_main_call1_v0_apply, val_main_call1_cst_apply, out0_eq, GraphConv.emb_ix2,
    GraphConv.upd_ix2]
  rfl

end Cert.ReferenceIdeal.RefValue

end
-- ==== Proof.Bridge.lean ====
/-
  The two programs compute one function.

  Both compute their neighbour sums by the same host operations: the edge array's source row, negative entries
  wrapped, gathers; the target row scatters and adds.  So the reference's first neighbour sum is the kernel program's,
  and its second is the kernel program's applied to the reference's hidden features.  With each side already shown to
  be layer one and layer two of its own neighbour sums, the results agree.
-/
import proofs.«102510_j52286931861627_1_alg».proof.Proof.KValue
import proofs.«102510_j52286931861627_1_alg».proof.Proof.RefValue

noncomputable section

namespace Cert.Proof.Bridge

open Idealize.ShloMosaic Idealize.ShloMosaic.TcCoe Idealize.SL.Sem
open Cert.ReferenceIdeal.Read

/-- The reference's first neighbour sum, operation for operation, is the kernel program's. -/
theorem agg1_eq (x0 : (⟨Cert.ReferenceIdeal.S100000x1, .f32⟩ : BufTy).Contents (Elt Ideal))
    (x1 : (⟨Cert.ReferenceIdeal.S2x1600000, .i32⟩ : BufTy).Contents (Elt Ideal)) :
    val_main_v13 (F := Ideal) x0 x1
      = Cert.KernelIdeal.Host.agg1 x0 (Cert.KernelIdeal.Host.srcRow x1) (Cert.KernelIdeal.Host.dstRow x1) := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst
    Cert.KernelIdeal.Host.agg1 Cert.KernelIdeal.Host.srcIdx Cert.KernelIdeal.Host.srcRow Cert.KernelIdeal.Host.dstRow
  rfl

/-- The reference's second neighbour sum is the kernel program's, of the reference's hidden features. -/
theorem agg2_eq (x0 : (⟨Cert.ReferenceIdeal.S100000x1, .f32⟩ : BufTy).Contents (Elt Ideal))
    (x1 : (⟨Cert.ReferenceIdeal.S2x1600000, .i32⟩ : BufTy).Contents (Elt Ideal))
    (x2 : (⟨Cert.ReferenceIdeal.S128x1, .f32⟩ : BufTy).Contents (Elt Ideal)) (x3 : (⟨Cert.ReferenceIdeal.S128, .f32⟩ : BufTy).Contents (Elt Ideal))
    (x4 : (⟨Cert.ReferenceIdeal.S128x1, .f32⟩ : BufTy).Contents (Elt Ideal)) :
    val_main_v32 (F := Ideal) x0 x1 x2 x3 x4
      = Cert.KernelIdeal.Host.agg2 (val_main_v22 (F := Ideal) x0 x1 x2 x3 x4) (Cert.KernelIdeal.Host.srcRow x1) (Cert.KernelIdeal.Host.dstRow x1) := by
  generalize hh : val_main_v22 (F := Ideal) x0 x1 x2 x3 x4 = h
  unfold val_main_v32 val_main_v31 val_main_v30 val_main_v29 val_main_v28 val_main_v27 val_main_v26 val_main_v25 val_main_v24
    val_main_v23 val_main_v3 val_main_v2 val_main_v1 val_main_v0 val_main_c_1 val_main_c_2 val_main_cst_3
    Cert.KernelIdeal.Host.agg2 Cert.KernelIdeal.Host.srcIdx Cert.KernelIdeal.Host.srcRow Cert.KernelIdeal.Host.dstRow
  rw [hh]
  rfl

/-- The reference's first result is the kernel program's function of the arguments. -/
theorem ref_out0 (x0 : (⟨Cert.ReferenceIdeal.S100000x1, .f32⟩ : BufTy).Contents (Elt Ideal))
    (x1 : (⟨Cert.ReferenceIdeal.S2x1600000, .i32⟩ : BufTy).Contents (Elt Ideal))
    (x2 : (⟨Cert.ReferenceIdeal.S128x1, .f32⟩ : BufTy).Contents (Elt Ideal)) (x3 : (⟨Cert.ReferenceIdeal.S128, .f32⟩ : BufTy).Contents (Elt Ideal))
    (x4 : (⟨Cert.ReferenceIdeal.S128x1, .f32⟩ : BufTy).Contents (Elt Ideal)) (x5 : (⟨Cert.ReferenceIdeal.S1x128, .f32⟩ : BufTy).Contents (Elt Ideal))
    (x6 : (⟨Cert.ReferenceIdeal.S1, .f32⟩ : BufTy).Contents (Elt Ideal)) (x7 : (⟨Cert.ReferenceIdeal.S1x128, .f32⟩ : BufTy).Contents (Elt Ideal)) :
    val_main_v40 (F := Ideal) x0 x1 x2 x3 x4 x5 x6 x7 = Cert.KernelIdeal.KValue.out0 x0 x1 x2 x3 x4 x5 x6 x7 := by
  rw [Cert.ReferenceIdeal.RefValue.out0_eq, agg2_eq, Cert.ReferenceIdeal.RefValue.hidden_eq, agg1_eq]
  rfl

/-- and so is its second. -/
theorem ref_out1 (x0 : (⟨Cert.ReferenceIdeal.S100000x1, .f32⟩ : BufTy).Contents (Elt Ideal))
    (x1 : (⟨Cert.ReferenceIdeal.S2x1600000, .i32⟩ : BufTy).Contents (Elt Ideal))
    (x2 : (⟨Cert.ReferenceIdeal.S128x1, .f32⟩ : BufTy).Contents (Elt Ideal)) (x3 : (⟨Cert.ReferenceIdeal.S128, .f32⟩ : BufTy).Contents (Elt Ideal))
    (x4 : (⟨Cert.ReferenceIdeal.S128x1, .f32⟩ : BufTy).Contents (Elt Ideal)) (x5 : (⟨Cert.ReferenceIdeal.S1x128, .f32⟩ : BufTy).Contents (Elt Ideal))
    (x6 : (⟨Cert.ReferenceIdeal.S1, .f32⟩ : BufTy).Contents (Elt Ideal)) (x7 : (⟨Cert.ReferenceIdeal.S1x128, .f32⟩ : BufTy).Contents (Elt Ideal)) :
    val_main_v41 (F := Ideal) x0 x1 x2 x3 x4 x5 x6 x7 = Cert.KernelIdeal.KValue.out1 x0 x1 x2 x3 x4 x5 x6 x7 := by
  rw [Cert.ReferenceIdeal.RefValue.out1_eq, agg2_eq, Cert.ReferenceIdeal.RefValue.hidden_eq, agg1_eq]
  rfl

end Cert.Proof.Bridge

end
-- ==== Proof.lean ====
/-
  A two-layer graph convolution on 100000 nodes and 1600000 edges, one input feature, 128 hidden features, one output
  feature: the Pallas program against its jnp reference, over the extended reals.

  Both programs compute each layer's neighbour sum on the host with the same operations (a gather at the edges'
  sources, a scatter-add at their targets).  The kernel program then runs each layer's per-node part as a region over
  fifty blocks of 2000 nodes: layer one is max (agg · w_rel + b + x · w_root) 0 with the weights broadcast along the
  rows; layer two sums agg₂ · w_rel and h · w_root along the 128 lanes around the bias and returns the sum and its
  maximum with zero.  The reference writes the same layers as products with transposed weights; a contraction of extent
  one is its single term, and a lane sum and a contraction over 128 are the same finite sum.  No law beyond the order
  of the additions as written is used, so the precondition is never opened.

  The frames of the two kernel programs are the generated ones; the reference's is its generated run with the results
  dropped; no rewrite was applied when the kernel was idealized, so there is nothing to preserve.
-/
import proofs.«102510_j52286931861627_1_alg».proof.Defs
import proofs.«102510_j52286931861627_1_alg».proof.Proof.Gen.Kernel
import proofs.«102510_j52286931861627_1_alg».proof.Proof.Gen.Kernel.Frame
import proofs.«102510_j52286931861627_1_alg».proof.Proof.Gen.KernelIdeal
import proofs.«102510_j52286931861627_1_alg».proof.Proof.Gen.KernelIdeal.Frame
import proofs.«102510_j52286931861627_1_alg».proof.Proof.Gen.ReferenceIdeal
import proofs.«102510_j52286931861627_1_alg».proof.Proof.Gen.ReferenceIdeal.Run
import proofs.«102510_j52286931861627_1_alg».proof.Proof.Gen.ReferenceIdeal.Read
import proofs.«102510_j52286931861627_1_alg».proof.Proof.Gen.Pre_finite_inputs
import proofs.«102510_j52286931861627_1_alg».proof.Proof.KValue
import proofs.«102510_j52286931861627_1_alg».proof.Proof.Bridge
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel program ends with its two results at layer two of the
    arguments (and that against zero), and the reference ends with its own terms, which are the same functions. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.Proof.Bridge.ref_out0,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [Cert.ReferenceIdeal.Read.val_main_v41_eq, Cert.Proof.Bridge.ref_out1,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
